-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8x1 : S_.BroadcastsInDim S8x1 (![] : Fin 0 → Fin S8x1.rank)
  reducesTo_S8x1_S_d0_1 : S8x1.ReducesTo [0, 1] S_

variable [Facts]

def fn_part1 {F : FTy → Type} [FloatOps F] (main_v13 : IVec S_ 1) (main_v16 : IVec S8x1 1) : IVec S_ 1 :=
  let main_c_5 : IVec S_ 1 := constantI S_ 1 1#1
  let main_v17 : IVec S_ 1 := (fun x v => Host.reduce IntOp.andi x v reducesTo_S8x1_S_d0_1 h_S_) main_v16 main_c_5
  let main_v18 : IVec S_ 1 := andi main_v13 main_v17
  main_v18

def fn {F : FTy → Type} [FloatOps F] (main_arg0 : FVec F S4x2048x1024 .f32) (main_arg1 : FVec F S8x1024 .f32) (main_arg2 : FVec F S8x1024 .f32) (main_arg3 : FVec F S8x1 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_v14 : FVec F S8x1 .f32 := Host.absf main_arg3
  let main_cst_4 : FVec F S_ .f32 := constant S_ .f32 0x7F800000#32
  let main_v15 : FVec F S8x1 .f32 := broadcastInDim S8x1 ![] bcast_S_S8x1 main_cst_4
  let main_v16 : IVec S8x1 1 := cmpf .olt main_v14 main_v15
  fn_part1 (F := F) main_v13 main_v16
-- ==== Kernel.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩
abbrev S1 : Shape := ⟨1, ![1]⟩
abbrev S1x1 : Shape := ⟨2, ![1, 1]⟩
abbrev S1x256x1024 : Shape := ⟨3, ![1, 256, 1024]⟩
abbrev S256x1024 : Shape := ⟨2, ![256, 1024]⟩
abbrev S1x1024 : Shape := ⟨2, ![1, 1024]⟩

abbrev nBuf : Space → Nat
  | .hbm => 44
  | .vmem => 9
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S8x1024, .f32⟩
  | .hbm, ⟨3, _⟩ => ⟨S8x1, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .i1⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1x1, .f32⟩
  | .hbm, ⟨31, _⟩ => ⟨S8x1, .f32⟩
  | .hbm, ⟨32, _⟩ => ⟨S8x1, .f32⟩
  | .hbm, ⟨33, _⟩ => ⟨S8x1, .f32⟩
  | .hbm, ⟨34, _⟩ => ⟨S_, .f32⟩
  | .hbm, ⟨35, _⟩ => ⟨S1, .f32⟩
  | .hbm, ⟨36, _⟩ => ⟨S1x1, .f32⟩
  | .hbm, ⟨37, _⟩ => ⟨S8x1, .f32⟩
  | .hbm, ⟨38, _⟩ => ⟨S8x1, .f32⟩
  | .hbm, ⟨39, _⟩ => ⟨S_, .f32⟩
  | .hbm, ⟨40, _⟩ => ⟨S8x1, .f32⟩
  | .hbm, ⟨41, _⟩ => ⟨S8x1, .f32⟩
  | .hbm, ⟨42, _⟩ => ⟨S8x1, .f32⟩
  | .hbm, ⟨43, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S8x1024, .f32⟩
  | .local _ .vmem, ⟨3, _⟩ => ⟨S8x1, .f32⟩
  | .local _ .vmem, ⟨4, _⟩ => ⟨S8x1024, .f32⟩
  | .local _ .vmem, ⟨5, _⟩ => ⟨S8x1024, .f32⟩
  | .local _ .vmem, ⟨6, _⟩ => ⟨S8x1, .f32⟩
  | .local _ .vmem, ⟨7, _⟩ => ⟨S1x256x1024, .f32⟩
  | .local _ .vmem, ⟨8, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_cst_2 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S8x1024 : S_.BroadcastsInDim S8x1024 (![] : Fin 0 → Fin S8x1024.rank)
  reducesTo_S8x1_S1_d0 : S8x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S_S8x1 : S_.BroadcastsInDim S8x1 (![] : Fin 0 → Fin S8x1.rank)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S8x1024_S8x1024_0_0 : ∀ a, (![0, 0] : Fin 2 → Nat) a + S8x1024.size a ≤ S8x1024.size a
  h_S8x1024 : 0 < S8x1024.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1024_S8x1024 : S8x1024.ShapeCasts S8x1024
  slices_S8x1024_o0_0_S1x1024 : S8x1024.Slices ![0, 0] S1x1024
  broadcasts_S1x1024_S256x1024 : S1x1024.Broadcasts S256x1024
  slices_S8x1_o0_0_S1x1 : S8x1.Slices ![0, 0] S1x1
  broadcasts_S1x1_S256x1024 : S1x1.Broadcasts S256x1024
  slices_S8x1024_o1_0_S1x1024 : S8x1024.Slices ![1, 0] S1x1024
  slices_S8x1_o1_0_S1x1 : S8x1.Slices ![1, 0] S1x1
  slices_S8x1024_o2_0_S1x1024 : S8x1024.Slices ![2, 0] S1x1024
  slices_S8x1_o2_0_S1x1 : S8x1.Slices ![2, 0] S1x1
  slices_S8x1024_o3_0_S1x1024 : S8x1024.Slices ![3, 0] S1x1024
  slices_S8x1_o3_0_S1x1 : S8x1.Slices ![3, 0] S1x1
  slices_S8x1024_o4_0_S1x1024 : S8x1024.Slices ![4, 0] S1x1024
  slices_S8x1_o4_0_S1x1 : S8x1.Slices ![4, 0] S1x1
  slices_S8x1024_o5_0_S1x1024 : S8x1024.Slices ![5, 0] S1x1024
  slices_S8x1_o5_0_S1x1 : S8x1.Slices ![5, 0] S1x1
  slices_S8x1024_o6_0_S1x1024 : S8x1024.Slices ![6, 0] S1x1024
  slices_S8x1_o6_0_S1x1 : S8x1.Slices ![6, 0] S1x1
  slices_S8x1024_o7_0_S1x1024 : S8x1024.Slices ![7, 0] S1x1024
  slices_S8x1_o7_0_S1x1 : S8x1.Slices ![7, 0] S1x1
  shapeCasts_S256x1024_S1x256x1024 : S256x1024.ShapeCasts S1x256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S8x1024.size a
  hwx0_1 : ∀ i : grid0.Coords, EltTy.bits .f32 = 32 ∨ (Rect.block (s := S8x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S8x1024.size a
  hwx0_3 : ∀ i : grid0.Coords, EltTy.bits .f32 = 32 ∨ (Rect.block (s := S8x1024) S8x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x2048x1024.size a
  hwx0_6 : ∀ i : grid0.Coords, EltTy.bits .f32 = 32 ∨ (Rect.block (s := S4x2048x1024) S1x256x1024.size (cc0_transform_6 i) (hinb0_6 i)).WholeWords (EltTy.packing .f32)

variable [Facts₀]

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8x1024 : Shape := ⟨2, ![8, 1024]⟩
abbrev S8x1 : Shape := ⟨2, ![8, 1]⟩
abbrev S_ : Shape := ⟨0, ![]⟩
abbrev S1 : Shape := ⟨1, ![1]⟩
abbrev S1x1 : Shape := ⟨2, ![1, 1]⟩
abbrev S8x1x1x1 : Shape := ⟨4, ![8, 1, 1, 1]⟩
abbrev S8x1x1x1024 : Shape := ⟨4, ![8, 1, 1, 1024]⟩
abbrev S1x4x2048x1024 : Shape := ⟨4, ![1, 4, 2048, 1024]⟩
abbrev S8x4x2048x1024 : Shape := ⟨4, ![8, 4, 2048, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8x1024, .f32⟩
  | .hbm, ⟨2, _⟩ => ⟨S8x1024, .f32⟩
  | .hbm, ⟨3, _⟩ => ⟨S8x1, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .i1⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S8x1, .f32⟩
  | .hbm, ⟨25, _⟩ => ⟨S8x1, .f32⟩
  | .hbm, ⟨26, _⟩ => ⟨S8x1, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S8x1, .f32⟩
  | .hbm, ⟨31, _⟩ => ⟨S8x1, .f32⟩
  | .hbm, ⟨32, _⟩ => ⟨S8x1x1x1, .f32⟩
  | .hbm, ⟨33, _⟩ => ⟨S8x1x1x1024, .f32⟩
  | .hbm, ⟨34, _⟩ => ⟨S1x4x2048x1024, .f32⟩
  | .hbm, ⟨35, _⟩ => ⟨S8x1x1x1024, .f32⟩
  | .hbm, ⟨36, _⟩ => ⟨S8x4x2048x1024, .f32⟩
  | .hbm, ⟨37, _⟩ => ⟨S8x4x2048x1024, .f32⟩
  | .hbm, ⟨38, _⟩ => ⟨S8x4x2048x1024, .f32⟩
  | .hbm, ⟨39, _⟩ => ⟨S_, .f32⟩
  | .hbm, ⟨40, _⟩ => ⟨S8x4x2048x1024, .f32⟩
  | .hbm, ⟨41, _⟩ => ⟨S8x4x2048x1024, .f32⟩
  | .hbm, ⟨42, _⟩ => ⟨S8x4x2048x1024, .f32⟩
  | .hbm, ⟨43, _⟩ => ⟨S_, .f32⟩
  | .hbm, ⟨44, _⟩ => ⟨S8x1x1x1024, .f32⟩
  | .hbm, ⟨45, _⟩ => ⟨S8x1x1x1024, .f32⟩
  | .hbm, ⟨46, _⟩ => ⟨S8x4x2048x1024, .f32⟩
  | .hbm, ⟨47, _⟩ => ⟨S8x4x2048x1024, .f32⟩
  | .hbm, ⟨48, _⟩ => ⟨S8x4x2048x1024, .f32⟩
  | .hbm, ⟨49, _⟩ => ⟨S8x4x2048x1024, .f32⟩
  | .hbm, ⟨50, _⟩ => ⟨S8x4x2048x1024, .f32⟩
  | .hbm, ⟨51, _⟩ => ⟨S_, .f32⟩
  | .hbm, ⟨52, _⟩ => ⟨S4x2048x1024, .f32⟩
  | .hbm, ⟨53, _⟩ => ⟨S_, .f32⟩
  | .hbm, ⟨54, _⟩ => ⟨S4x2048x1024, .f32⟩
  | .hbm, ⟨55, _⟩ => ⟨S4x2048x1024, .f32⟩
  | .hbm, ⟨56, _⟩ => ⟨S1x4x2048x1024, .f32⟩
  | .hbm, ⟨57, _⟩ => ⟨S8x4x2048x1024, .f32⟩
  | .hbm, ⟨58, _⟩ => ⟨S8x4x2048x1024, .f32⟩
  | .hbm, ⟨59, _⟩ => ⟨S_, .f32⟩
  | .hbm, ⟨60, _⟩ => ⟨S8x1x1x1, .f32⟩
  | .hbm, ⟨61, _⟩ => ⟨S8x1x1x1, .f32⟩
  | .hbm, ⟨62, _⟩ => ⟨S8x1x1x1, .f32⟩
  | .hbm, ⟨63, _⟩ => ⟨S8x4x2048x1024, .f32⟩
  | .hbm, ⟨64, _⟩ => ⟨S8x4x2048x1024, .f32⟩
  | .hbm, ⟨65, _⟩ => ⟨S8x4x2048x1024, .f32⟩
  | .hbm, ⟨66, _⟩ => ⟨S_, .f32⟩
  | .hbm, ⟨67, _⟩ => ⟨S8x1x1x1024, .f32⟩
  | .hbm, ⟨68, _⟩ => ⟨S8x1x1x1024, .f32⟩
  | .hbm, ⟨69, _⟩ => ⟨S8x1x1x1024, .f32⟩
  | .hbm, ⟨70, _⟩ => ⟨S8x4x2048x1024, .f32⟩
  | .hbm, ⟨71, _⟩ => ⟨S8x4x2048x1024, .f32⟩
  | .hbm, ⟨72, _⟩ => ⟨S_, .f32⟩
  | .hbm, ⟨73, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_cst_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  reducesTo_S8x1_S1_d0 : S8x1.ReducesTo [0] S1
  h_S_ : 0 < S_.numel
  bcast_S_S1 : S_.BroadcastsInDim S1 (![] : Fin 0 → Fin S1.rank)
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  bcast_S8x1_S8x1x1x1_0_1 : S8x1.BroadcastsInDim S8x1x1x1 (![0, 1] : Fin 2 → Fin S8x1x1x1.rank)
  bcast_S8x1024_S8x1x1x1024_0_3 : S8x1024.BroadcastsInDim S8x1x1x1024 (![0, 3] : Fin 2 → Fin S8x1x1x1024.rank)
  bcast_S4x2048x1024_S1x4x2048x1024_1_2_3 : S4x2048x1024.BroadcastsInDim S1x4x2048x1024 (![1, 2, 3] : Fin 3 → Fin S1x4x2048x1024.rank)
  bcast_S1x4x2048x1024_S8x4x2048x1024_0_1_2_3 : S1x4x2048x1024.BroadcastsInDim S8x4x2048x1024 (![0, 1, 2, 3] : Fin 4 → Fin S8x4x2048x1024.rank)
  bcast_S8x1x1x1024_S8x4x2048x1024_0_1_2_3 : S8x1x1x1024.BroadcastsInDim S8x4x2048x1024 (![0, 1, 2, 3] : Fin 4 → Fin S8x4x2048x1024.rank)
  bcast_S_S8x4x2048x1024 : S_.BroadcastsInDim S8x4x2048x1024 (![] : Fin 0 → Fin S8x4x2048x1024.rank)
  bcast_S_S8x1x1x1024 : S_.BroadcastsInDim S8x1x1x1024 (![] : Fin 0 → Fin S8x1x1x1024.rank)
  bcast_S8x1x1x1_S8x4x2048x1024_0_1_2_3 : S8x1x1x1.BroadcastsInDim S8x4x2048x1024 (![0, 1, 2, 3] : Fin 4 → Fin S8x4x2048x1024.rank)
  reducesTo_S8x4x2048x1024_S4x2048x1024_d0 : S8x4x2048x1024.ReducesTo [0] S4x2048x1024
  bcast_S_S4x2048x1024 : S_.BroadcastsInDim S4x2048x1024 (![] : Fin 0 → Fin S4x2048x1024.rank)
  bcast_S_S8x1x1x1 : S_.BroadcastsInDim S8x1x1x1 (![] : Fin 0 → Fin S8x1x1x1.rank)

variable [Facts₀]

class Facts : Prop extends Facts₀ where

variable [Facts]
-- ==== Proof.Spec.lean ====
/-
  The mathematics both programs compute, as two scalar formulas on the extended reals.

  A Gaussian mixture of eight clusters is evaluated at one coordinate x of a feature column: cluster k has centre μ k,
  weight π k and variance v k > 0. Its unnormalised posterior weight at x is
      t k = π k · exp(-(x - μ k)² / (2 · v k)),
  the normaliser is D = Σ_k t k + ε, and the result is the posterior-weighted, per-cluster normalised residual
      Σ_k (t k / D) / √(π k + ε) · (x - μ k) / √(v k).
  The reference divides (by v k, by D, by the two square roots); the kernel multiplies by reciprocals it has tabulated:
  w k = 1 / v k, the reciprocal square roots of v k and of π k + ε, and 1 / D. It also accumulates its two sums term by
  term from the left where the reference takes one sum over the clusters.

  The constants are parameters here: z is the sums' initial value (zero), one the numerator of the reciprocals, ε the
  regulariser, c the factor -1/2. Both programs carry the same f32 words for them.
-/
import Idealize.ShloMosaic.PureOps.Ideal

noncomputable section

namespace Cert.Mixture

open Idealize.ShloMosaic

/-- The kernel's unnormalised posterior weight of cluster k at x: the exponent is a product with the reciprocal variance w k. -/
def weightK (c x : EReal) (μ π w : Fin 8 → EReal) (k : Fin 8) : EReal :=
  π k * Ideal.exp (((c * (x - μ k)) * (x - μ k)) * w k)

/-- The kernel's running sum of the eight weights, from the left, started at z. -/
def sumK (c z x : EReal) (μ π w : Fin 8 → EReal) : EReal :=
  (((((((z + weightK c x μ π w 0) + weightK c x μ π w 1) + weightK c x μ π w 2) + weightK c x μ π w 3)
    + weightK c x μ π w 4) + weightK c x μ π w 5) + weightK c x μ π w 6) + weightK c x μ π w 7

/-- The kernel's term of cluster k: the weight times the reciprocal normaliser g, times the reciprocal root rp k of the
    cluster's regularised weight, times the residual, times the reciprocal root rs k of the variance. -/
def termK (c x g : EReal) (μ π w rp rs : Fin 8 → EReal) (k : Fin 8) : EReal :=
  (((weightK c x μ π w k * g) * rp k) * (x - μ k)) * rs k

/-- The kernel's result at x: the eight terms summed from the left, started at z. -/
def outK (c z one ε x : EReal) (μ π w rp rs : Fin 8 → EReal) : EReal :=
  (((((((z + termK c x (Ideal.div one (sumK c z x μ π w + ε)) μ π w rp rs 0)
    + termK c x (Ideal.div one (sumK c z x μ π w + ε)) μ π w rp rs 1)
    + termK c x (Ideal.div one (sumK c z x μ π w + ε)) μ π w rp rs 2)
    + termK c x (Ideal.div one (sumK c z x μ π w + ε)) μ π w rp rs 3)
    + termK c x (Ideal.div one (sumK c z x μ π w + ε)) μ π w rp rs 4)
    + termK c x (Ideal.div one (sumK c z x μ π w + ε)) μ π w rp rs 5)
    + termK c x (Ideal.div one (sumK c z x μ π w + ε)) μ π w rp rs 6)
    + termK c x (Ideal.div one (sumK c z x μ π w + ε)) μ π w rp rs 7

/-- The reference's unnormalised posterior weight of cluster k at x: the exponent is a quotient by the variance v k. -/
def weightR (c x : EReal) (μ π v : Fin 8 → EReal) (k : Fin 8) : EReal :=
  π k * Ideal.exp (Ideal.div ((c * (x - μ k)) * (x - μ k)) (v k))

/-- The reference's sum of the eight weights. -/
def sumR (c z x : EReal) (μ π v : Fin 8 → EReal) : EReal :=
  z + ∑ k : Fin 8, weightR c x μ π v k

/-- The reference's term of cluster k. -/
def termR (c z ε x : EReal) (μ π v : Fin 8 → EReal) (k : Fin 8) : EReal :=
  Ideal.div (Ideal.div (Ideal.div (weightR c x μ π v k) (sumR c z x μ π v + ε)) (Ideal.sqrt (π k + ε)) * (x - μ k))
    (Ideal.sqrt (v k))

/-- The reference's result at x. -/
def outR (c z ε x : EReal) (μ π v : Fin 8 → EReal) : EReal :=
  z + ∑ k : Fin 8, termR c z ε x μ π v k

end Cert.Mixture

end
-- ==== Proof.Algebra.lean ====
/-
  The kernel's formula and the reference's are one function of their arguments, wherever every variance is positive
  and every cluster weight is not negative.

  Three facts about the extended reals carry it. A product with the reciprocal, a · (1 / b), is the quotient a / b as
  soon as b ≠ 0. A product with the reciprocal square root, a · b^(-1/2), is the quotient a / √b as soon as b > 0 (at
  b = +∞ both are a · 0). And the kernel's two sums, taken term by term from the left, are the reference's sums: addition
  on the extended reals is associative and commutative without any finiteness. The normaliser Σ t k + ε is positive
  because every t k = π k · exp(…) is a product of two numbers that are not negative, and ε > 0.
-/
import proofs.«108010_j66735201845900_1_alg».proof.Proof.Spec
import Idealize.ShloMosaic.Lib.IdealHost
import Mathlib.Data.EReal.Inv

noncomputable section

namespace Cert.Mixture

open Idealize.ShloMosaic

/-- The exponential on the extended reals is never negative (it is 0 at -∞ and +∞ at +∞). -/
theorem exp_nonneg (x : EReal) : 0 ≤ Ideal.exp x := by
  induction x using EReal.rec with
  | bot => rw [Ideal.exp_bot]
  | coe r => rw [Ideal.exp_coe]; exact EReal.coe_nonneg.mpr (Real.exp_pos r).le
  | top => rw [Ideal.exp_top]; exact le_top

/-- a · b^(-1/2) = a / √b for b > 0, the value +∞ included. -/
theorem mul_rsqrt (a b : EReal) (hb : 0 < b) : a * Ideal.rsqrt b = Ideal.div a (Ideal.sqrt b) := by
  induction b using EReal.rec with
  | bot => exact absurd hb (by simp)
  | coe r =>
    have hr : 0 < r := EReal.coe_pos.mp hb
    have hs : (Real.sqrt r : EReal) ≠ 0 := by exact_mod_cast (Real.sqrt_pos.mpr hr).ne'
    rw [Ideal.rsqrt_coe, Ideal.sqrt_coe, if_neg (not_lt.mpr hr.le), if_neg hr.ne', if_neg (not_lt.mpr hr.le)]
    unfold Ideal.div
    rw [if_neg hs, EReal.coe_inv]
  | top =>
    rw [Ideal.rsqrt_top, Ideal.sqrt_top]
    unfold Ideal.div
    rw [if_neg (by simp), EReal.inv_top]

/-- A number that is not negative plus a positive one is positive (no finiteness is needed). -/
theorem add_pos_of_nonneg_of_pos' {a b : EReal} (ha : 0 ≤ a) (hb : 0 < b) : 0 < a + b :=
  hb.trans_le (le_add_of_nonneg_left ha)

section
variable (c z one ε x : EReal) (μ π v : Fin 8 → EReal)

/-- With w k = 1 / v k and v k > 0 the kernel's weight is the reference's. -/
theorem weightK_eq (h1 : one = 1) (hv : ∀ k, 0 < v k) (k : Fin 8) :
    weightK c x μ π (fun k => Ideal.div one (v k)) k = weightR c x μ π v k := by
  subst h1
  simp only [weightK, weightR]
  rw [Ideal.mul_one_div (hv k).ne']

/-- The kernel's running sum from the left is the initial value plus the sum over the clusters. -/
theorem sumK_eq (w : Fin 8 → EReal) : sumK c z x μ π w = z + ∑ k : Fin 8, weightK c x μ π w k := by
  simp only [sumK, Fin.sum_univ_eight, add_assoc]

theorem sumK_eq_sumR (h1 : one = 1) (hv : ∀ k, 0 < v k) :
    sumK c z x μ π (fun k => Ideal.div one (v k)) = sumR c z x μ π v := by
  rw [sumK_eq, sumR]
  exact congrArg (z + ·) (Finset.sum_congr rfl fun k _ => weightK_eq c one x μ π v h1 hv k)

/-- Every weight is a product of two numbers that are not negative. -/
theorem weightR_nonneg (hπ : ∀ k, 0 ≤ π k) (k : Fin 8) : 0 ≤ weightR c x μ π v k :=
  EReal.mul_nonneg (hπ k) (exp_nonneg _)

/-- The regularised normaliser is positive. -/
theorem norm_pos (hz : z = 0) (hε : 0 < ε) (hπ : ∀ k, 0 ≤ π k) : 0 < sumR c z x μ π v + ε := by
  subst hz
  refine add_pos_of_nonneg_of_pos' ?_ hε
  rw [sumR, zero_add]
  exact Finset.sum_nonneg fun k _ => weightR_nonneg c x μ π v hπ k

/-- Cluster k's term: three products with reciprocals are three quotients. -/
theorem termK_eq (hz : z = 0) (h1 : one = 1) (hε : 0 < ε) (hv : ∀ k, 0 < v k) (hπ : ∀ k, 0 ≤ π k) (k : Fin 8) :
    termK c x (Ideal.div one (sumK c z x μ π (fun k => Ideal.div one (v k)) + ε)) μ π (fun k => Ideal.div one (v k))
        (fun k => Ideal.rsqrt (π k + ε)) (fun k => Ideal.rsqrt (v k)) k
      = termR c z ε x μ π v k := by
  have hD : sumR c z x μ π v + ε ≠ 0 := (norm_pos c z ε x μ π v hz hε hπ).ne'
  have hp : 0 < π k + ε := add_pos_of_nonneg_of_pos' (hπ k) hε
  rw [sumK_eq_sumR c z one x μ π v h1 hv]
  simp only [termK, termR]
  rw [weightK_eq c one x μ π v h1 hv k]
  subst h1
  rw [Ideal.mul_one_div hD, mul_rsqrt _ _ hp, mul_rsqrt _ _ (hv k)]

/-- THE LAW: the kernel's result is the reference's. -/
theorem outK_eq_outR (hz : z = 0) (h1 : one = 1) (hε : 0 < ε) (hv : ∀ k, 0 < v k) (hπ : ∀ k, 0 ≤ π k) :
    outK c z one ε x μ π (fun k => Ideal.div one (v k)) (fun k => Ideal.rsqrt (π k + ε)) (fun k => Ideal.rsqrt (v k))
      = outR c z ε x μ π v := by
  simp only [outK, outR, termK_eq c z one ε x μ π v hz h1 hε hv hπ, Fin.sum_univ_eight, add_assoc]

end

end Cert.Mixture

end
-- ==== Proof.TableFacts.lean ====
/-
  Signs of the two small tables both programs compute on the host.

  The variances pass through softplus, log(1 + e^s) written as max(s, 0) + log(1 + e^(-|s|)): both summands are never
  negative on the extended reals, whatever s is, so the regularised variance softplus(s) + ε is positive without any
  assumption. The cluster weights are a softmax e^(p k - M) / Σ_j e^(p j - M): every exponential is positive as long as
  no prior is -∞ and the subtracted maximum M is not +∞, so the sum is positive and the quotient is not negative. (With
  all priors at -∞ the sum would be 0 and the quotient 0 / 0, which is why finiteness of the priors is used.)
-/
import Idealize.ShloMosaic.PureOps.Ideal
import Mathlib.Data.EReal.Inv

noncomputable section

namespace Cert.Mixture

open Idealize.ShloMosaic

/-- The exponential is positive away from -∞. -/
theorem exp_pos_of_ne_bot {y : EReal} (hy : y ≠ ⊥) : 0 < Ideal.exp y := by
  induction y using EReal.rec with
  | bot => exact absurd rfl hy
  | coe r => rw [Ideal.exp_coe]; exact EReal.coe_pos.mpr (Real.exp_pos r)
  | top => rw [Ideal.exp_top]; exact EReal.zero_lt_top

/-- log(1 + e^y) is never negative: 1 + e^y ≥ 1. -/
theorem log1p_exp_nonneg (y : EReal) : 0 ≤ Ideal.log1p (Ideal.exp y) := by
  unfold Ideal.log1p
  induction y using EReal.rec with
  | bot =>
    rw [Ideal.exp_bot, add_zero, ← EReal.coe_one, Ideal.log_coe, if_neg (by norm_num), Real.log_one, EReal.coe_zero]
  | coe r =>
    have h1 : (1 : ℝ) ≤ 1 + Real.exp r := by linarith [Real.exp_pos r]
    rw [Ideal.exp_coe, ← EReal.coe_one, ← EReal.coe_add, Ideal.log_coe, if_neg (by linarith)]
    exact EReal.coe_nonneg.mpr (Real.log_nonneg h1)
  | top =>
    rw [Ideal.exp_top, EReal.add_top_of_ne_bot (by rw [← EReal.coe_one]; exact EReal.coe_ne_bot 1), Ideal.log_top]
    exact le_top

/-- softplus in its overflow-free spelling is never negative. -/
theorem softplus_nonneg (s z y : EReal) (hz : z = 0) : 0 ≤ max s z + Ideal.log1p (Ideal.exp y) := by
  subst hz
  exact add_nonneg (le_max_right _ _) (log1p_exp_nonneg y)

/-- A difference is not -∞ when the minuend is not -∞ and the subtrahend is not +∞. -/
theorem sub_ne_bot {a b : EReal} (ha : a ≠ ⊥) (hb : b ≠ ⊤) : a - b ≠ ⊥ := by
  rw [sub_eq_add_neg, Ne, EReal.add_eq_bot_iff, not_or]
  exact ⟨ha, fun h => hb (EReal.neg_eq_bot_iff.mp h)⟩

/-- A quotient of a number that is not negative by a sum of positive numbers (from a zero initial value) is not negative. -/
theorem div_sum_nonneg {ι : Type} [Fintype ι] (N z : EReal) (e : ι → EReal) (j0 : ι) (hz : z = 0) (hN : 0 ≤ N)
    (he : ∀ j, 0 < e j) : 0 ≤ Ideal.div N (z + ∑ j, e j) := by
  subst hz
  rw [zero_add]
  have hS : 0 < ∑ j, e j :=
    lt_of_lt_of_le (he j0) (Finset.single_le_sum (fun j _ => (he j).le) (Finset.mem_univ j0))
  unfold Ideal.div
  rw [if_neg hS.ne']
  exact EReal.mul_nonneg hN (EReal.inv_nonneg_of_nonneg hS.le)

/-- A running maximum that starts below +∞ and meets only numbers below +∞ stays below +∞. -/
theorem foldl_max_lt_top {ι : Type} (g : ι → EReal) :
    ∀ (l : List ι) (init : EReal), init < ⊤ → (∀ n ∈ l, g n < ⊤) → l.foldl (fun r n => max r (g n)) init < ⊤
  | [], _, hi, _ => hi
  | a :: l, _, hi, hg =>
    foldl_max_lt_top g l _ (max_lt hi (hg a List.mem_cons_self)) (fun n hn => hg n (List.mem_cons_of_mem _ hn))

end Cert.Mixture

end
-- ==== Proof.TableSigns.lean ====
/-
  Signs of the softplus and softmax stages as arrays, and what the precondition says of the priors.

  Every entry of the softplus stage is not negative whatever the variances are. Every entry of the softmax stage is not
  negative when every prior is finite: the shift by the running maximum (taken from -∞ over the eight priors) is then
  below +∞, each shifted prior is above -∞, each exponential is positive, and so is their sum. The precondition's last
  conjunct, "|prior| < +∞ everywhere", gives exactly that every prior is neither -∞ nor +∞.
-/
import proofs.«108010_j66735201845900_1_alg».proof.Proof.Gen.ReferenceIdeal.Read
import proofs.«108010_j66735201845900_1_alg».proof.Proof.Gen.Pre_finite_inputs
import proofs.«108010_j66735201845900_1_alg».proof.Proof.TableFacts
import proofs.«108010_j66735201845900_1_alg».proof.Proof.Algebra
import Idealize.ShloMosaic.Lib.ReduceAll
import Idealize.ShloMosaic.Lib.ValueIdx
import Idealize.ShloMosaic.PureOps.Ideal.Laws

noncomputable section

namespace Cert.ReferenceIdeal.TableSigns

open Cert.ReferenceIdeal Cert.ReferenceIdeal.Read Idealize.ShloMosaic Idealize.ShloMosaic.ValueIdx Cert.Mixture

/-- The f32 word of -∞ is below +∞. -/
theorem negInf_lt_top : Ideal.ofBits .f32 0xFF800000#32 < ⊤ := by
  simp [Ideal.ofBits, Ideal.ieee]

/-- The f32 word of +∞ is +∞. -/
theorem posInf_eq_top : Ideal.ofBits .f32 0x7F800000#32 = ⊤ := by
  simp [Ideal.ofBits, Ideal.ieee]

/-- The softplus of the variances is nowhere negative. -/
theorem softplus_nonneg_at (x2 : (⟨S8x1024, .f32⟩ : BufTy).Contents (Elt Ideal)) (i : S8x1024.Idx) :
    0 ≤ val_main_v0 (F := Ideal) x2 i := by
  have hc : FloatOps.cmpf (F := Ideal) (φ := .f32) .une (val_main_call0_v3 (F := Ideal) x2 i) (val_main_call0_v3 (F := Ideal) x2 i) = 0#1 := by
    show Ideal.cmp .une _ _ = 0#1
    simp [Ideal.cmp]
  rw [val_main_v0_apply, val_main_call0_v4_apply, hc, select_zero, val_main_call0_v11_apply, val_main_call0_v1_apply,
    val_main_call0_v10_apply, val_main_call0_v9_apply, val_main_call0_v0_apply, val_main_call0_cst_apply]
  exact softplus_nonneg _ _ _ Ideal.ofBits_zero_f32

section
variable (x3 : (⟨S8x1, .f32⟩ : BufTy).Contents (Elt Ideal)) (hfin : ∀ j, x3 j ≠ ⊥ ∧ x3 j ≠ ⊤)
include hfin

/-- The running maximum of finite priors, started at -∞, is below +∞. -/
theorem max_lt_top (j : S1.Idx) : val_main_v1 (F := Ideal) x3 j < ⊤ := by
  unfold val_main_v1
  rw [Host.reduce_eq_foldl]
  exact foldl_max_lt_top _ _ _ negInf_lt_top (fun n _ => lt_top_iff_ne_top.mpr (hfin n).2)

/-- So the shift subtracted from every prior is not +∞. -/
theorem shift_ne_top (j : S8x1.Idx) : val_main_v5 (F := Ideal) x3 j ≠ ⊤ := by
  rw [val_main_v5_apply, val_main_v4_apply, val_main_v3_apply, val_main_v2_apply, val_main_cst_0_apply]
  exact (max_lt negInf_lt_top (max_lt_top x3 hfin _)).ne

/-- Every shifted exponential is positive. -/
theorem expShift_pos (j : S8x1.Idx) : 0 < val_main_v7 (F := Ideal) x3 j := by
  rw [val_main_v7_apply, val_main_v6_apply]
  exact exp_pos_of_ne_bot (sub_ne_bot (hfin j).1 (shift_ne_top x3 hfin j))

/-- The softmax of finite priors is nowhere negative. -/
theorem softmax_nonneg_at (i : S8x1.Idx) : 0 ≤ val_main_v11 (F := Ideal) x3 i := by
  rw [val_main_v11_apply, val_main_v10_apply, val_main_v9_apply, val_main_v8_apply, val_main_cst_1_apply]
  exact div_sum_nonneg _ _ _ (0 : Fin 8) Ideal.ofBits_zero_f32 (expShift_pos x3 hfin i).le
    (fun k => expShift_pos x3 hfin _)

end

instance : Subsingleton Cert.Pre_finite_inputs.S_.Idx := ⟨fun a b => funext fun d => d.elim0⟩

/-- The precondition makes every prior finite. -/
theorem priors_finite (x0 : FVec Ideal Cert.Pre_finite_inputs.S4x2048x1024 .f32) (x1 x2 : FVec Ideal Cert.Pre_finite_inputs.S8x1024 .f32)
    (x3 : FVec Ideal Cert.Pre_finite_inputs.S8x1 .f32)
    (h : Cert.Pre_finite_inputs.fn (F := Ideal) x0 x1 x2 x3 = fun _ => 1#1) (j : Cert.Pre_finite_inputs.S8x1.Idx) :
    x3 j ≠ ⊥ ∧ x3 j ≠ ⊤ := by
  have h0 := congrFun h ValueIdx.ix0
  dsimp only [Cert.Pre_finite_inputs.fn, Cert.Pre_finite_inputs.fn_part1] at h0
  obtain ⟨-, h17⟩ := IntOp.andi_eq_one.1 h0
  have hj := Host.reduce_andi_all _ _ _ _ _ h17 j
  have hlt : max (x3 j) (-(x3 j)) < ⊤ := by
    have hj' : Ideal.cmp .olt (max (x3 j) (-(x3 j))) (Ideal.ofBits .f32 0x7F800000#32) = 1#1 := hj
    rw [posInf_eq_top] at hj'
    by_contra hn
    simp [Ideal.cmp, hn] at hj'
  constructor
  · intro e; rw [e] at hlt; simp at hlt
  · intro e; rw [e] at hlt; simp at hlt

end Cert.ReferenceIdeal.TableSigns

end
-- ==== Proof.BodyValue.lean ====
/-
  What the kernel's body stores, read at one index of its block.

  The body works on a [256, 1024] tile of x (one batch entry, 256 rows, the whole feature axis) and on five small tables
  that it holds whole: the cluster centres [8, 1024], the cluster weights [8, 1], the reciprocal variances [8, 1024], the
  reciprocal roots of the variances [8, 1024] and the reciprocal roots of the regularised weights [8, 1]. Every table
  row k is broadcast down the tile's rows, so at tile position (r, d) the body reads the tables at (k, d) or (k, 0) and
  the tile at (r, d): the stored value at (0, r, d) is the scalar formula `Cert.Mixture.outK` of those entries.
-/
import proofs.«108010_j66735201845900_1_alg».proof.Proof.Gen.KernelIdeal.Frame
import proofs.«108010_j66735201845900_1_alg».proof.Proof.Spec
import Idealize.ShloMosaic.Lib.Pipeline.Value
import Idealize.ShloMosaic.Lib.ValueIdx

noncomputable section

namespace Cert.KernelIdeal.BodyValue

open Cert.KernelIdeal Cert.KernelIdeal.Gen Idealize.ShloMosaic Idealize.ShloMosaic.ValueIdx Cert.Mixture

variable {α : Type}

theorem hz2 : (![0, 0] : Fin 2 → Nat) = fun _ => 0 := funext fun a => by fin_cases a <;> rfl
theorem hz3 : (![0, 0, 0] : Fin 3 → Nat) = fun _ => 0 := funext fun a => by fin_cases a <;> rfl

/-- Row o of an [8, 1024] table, broadcast down the rows of a block, read at (r, d): the table at (o, d). -/
theorem row_apply (o : ℕ) (ho : o < 8) (T : S8x1024.Idx → α) (h : S8x1024.Slices ![o, 0] S1x1024)
    (hb : S1x1024.Broadcasts S256x1024) (j : S256x1024.Idx) :
    broadcastTo S256x1024 (extractStridedSlice S1x1024 ![o, 0] T h) hb j
      = T (ix2 (⟨o, ho⟩ : Fin 8) (⟨(j 1).val, (j 1).isLt⟩ : Fin 1024)) := by
  refine (broadcastTo_apply _ hb j (ix2 (⟨0, Nat.one_pos⟩ : Fin 1) (⟨(j 1).val, (j 1).isLt⟩ : Fin 1024)) (fun a => match a with
    | ⟨0, _⟩ => by show 0 = if (1 : Nat) = 1 then 0 else (j 0).val; rw [if_pos rfl]
    | ⟨1, _⟩ => by show (j 1).val = if (1024 : Nat) = 1 then 0 else (j 1).val; rw [if_neg (by decide)])).trans ?_
  exact extractStridedSlice_apply _ T h _ _ (fun a => match a with
    | ⟨0, _⟩ => by show o = o + 0; rfl
    | ⟨1, _⟩ => by show (j 1).val = 0 + (j 1).val; omega)

/-- Entry o of an [8, 1] column, broadcast over a block, read anywhere: the column at (o, 0). -/
theorem entry_apply (o : ℕ) (ho : o < 8) (T : S8x1.Idx → α) (h : S8x1.Slices ![o, 0] S1x1)
    (hb : S1x1.Broadcasts S256x1024) (j : S256x1024.Idx) :
    broadcastTo S256x1024 (extractStridedSlice S1x1 ![o, 0] T h) hb j
      = T (ix2 (⟨o, ho⟩ : Fin 8) (⟨0, Nat.one_pos⟩ : Fin 1)) := by
  refine (broadcastTo_apply _ hb j (ix2 (⟨0, Nat.one_pos⟩ : Fin 1) (⟨0, Nat.one_pos⟩ : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl])).trans ?_
  exact extractStridedSlice_apply _ T h _ _ (fun a => match a with
    | ⟨0, _⟩ => by show o = o + 0; rfl
    | ⟨1, _⟩ => by show 0 = 0 + 0; rfl)

theorem exp_apply {s : Shape} {φ : FTy} (a : FVec Ideal s φ) (i : s.Idx) : exp a i = Ideal.exp (a i) := rfl

/-- The block's leading unit axis dropped and put back: the two-dimensional view of the x block at (r, d) is the block at (0, r, d). -/
theorem xblock_apply (x0 : Vec Ideal S1x256x1024 .f32) (j : S1x256x1024.Idx) :
    k0_pay2 x0 ((fun a : Fin 2 => j a.succ) : S256x1024.Idx) = x0 j := by
  unfold k0_pay2
  refine (shapeCast_dropUnit_apply _ x0 _ _).trans (congrArg x0 ?_)
  funext a
  refine Fin.cases ?_ (fun i => ?_) a
  · apply Fin.ext
    have h : (j 0).val < 1 := (j 0).isLt
    show 0 = (j 0).val
    omega
  · rfl

set_option maxHeartbeats 4000000 in
/-- The body's stored block at index j = (0, r, d): the kernel's scalar formula of the x block at j and of the five
    tables' columns at d (or their single column). Every operation of the body is pointwise on the tile except the row
    extractions and their broadcasts, read by `row_apply` and `entry_apply`, and the two casts of the unit axis. -/
theorem out_apply (x0 : Vec Ideal S1x256x1024 .f32) (x1 : Vec Ideal S8x1024 .f32) (x2 : Vec Ideal S8x1 .f32)
    (x3 x4 : Vec Ideal S8x1024 .f32) (x5 : Vec Ideal S8x1 .f32) (j : S1x256x1024.Idx) :
    out0_6 x0 x1 x2 x3 x4 x5 j
      = outK (Ideal.ofBits .f32 0xBF000000#32) (Ideal.ofBits .f32 0x00000000#32) (Ideal.ofBits .f32 0x3F800000#32)
          (Ideal.ofBits .f32 0x3A83126F#32) (x0 j)
          (fun k => x1 (ix2 k (⟨(j 2).val, (j 2).isLt⟩ : Fin 1024)))
          (fun k => x2 (ix2 k (⟨0, Nat.one_pos⟩ : Fin 1)))
          (fun k => x3 (ix2 k (⟨(j 2).val, (j 2).isLt⟩ : Fin 1024)))
          (fun k => x5 (ix2 k (⟨0, Nat.one_pos⟩ : Fin 1)))
          (fun k => x4 (ix2 k (⟨(j 2).val, (j 2).isLt⟩ : Fin 1024))) := by
  unfold out0_6
  rw [View.canon_unit_zero hz3]
  simp only [View.ld_unit_zero (S := S1x256x1024) hz3, View.ld_unit_zero (S := S8x1024) hz2, View.ld_unit_zero (S := S8x1) hz2]
  simp only [k0_pay1, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20]
  refine (shapeCast_addUnit_apply _ _ _ j).trans ?_
  obtain ⟨j', hj'⟩ : ∃ j' : S256x1024.Idx, j' = (fun a : Fin 2 => j a.succ) := ⟨_, rfl⟩
  rw [← hj']
  simp only [shapeCast_self, addf_apply, mulf_apply, subf_apply, divf_apply, exp_apply, broadcast_apply,
    row_apply 0 (by decide), row_apply 1 (by decide), row_apply 2 (by decide), row_apply 3 (by decide),
    row_apply 4 (by decide), row_apply 5 (by decide), row_apply 6 (by decide), row_apply 7 (by decide),
    entry_apply 0 (by decide), entry_apply 1 (by decide), entry_apply 2 (by decide), entry_apply 3 (by decide),
    entry_apply 4 (by decide), entry_apply 5 (by decide), entry_apply 6 (by decide), entry_apply 7 (by decide)]
  subst hj'
  simp only [xblock_apply]
  rfl

end Cert.KernelIdeal.BodyValue

end
-- ==== Proof.ArrayValue.lean ====
/-
  From blocks to the array: what the kernel's result array holds after the run.

  The grid has 4 × 8 points; point (b, q) stages the [1, 256, 1024] block of x at block index (b, q, 0) and writes the
  same block of the result, while the five tables are staged whole at every point. So the block the body leaves at a
  point is the restriction of ONE function `G` of the six arrays to that block, the 32 blocks tile the [4, 2048, 1024]
  result, and the array ends at `G`: at i = (b, l, d) the kernel's scalar formula of x at i and of the tables' column d.
-/
import proofs.«108010_j66735201845900_1_alg».proof.Proof.BodyValue

noncomputable section

namespace Cert.KernelIdeal.ArrayValue

open Cert.KernelIdeal Cert.KernelIdeal.Gen Idealize.ShloMosaic Idealize.ShloMosaic.TcCoe Idealize.SL.Sem
open Idealize.ShloMosaic.ValueIdx Cert.Mixture
open Idealize.ShloMosaic.Pipeline (Dat)

variable (m : (ℓ : Loc nD τ sig) → Buf (Elt Ideal) ℓ) (ρ : Dev nD → PrngReg)

/-- The column of a result index, as a coordinate of the [8, 1024] tables. -/
abbrev col (i : S4x2048x1024.Idx) : Fin 1024 := ⟨(i 2).val, (i 2).isLt⟩

/-- The result array as one function of x (a0), the centres (a1), the cluster weights (a2), the reciprocal variances
    (a3), the reciprocal roots of the variances (a4) and the reciprocal roots of the regularised weights (a5). -/
def G (a0 : S4x2048x1024.Idx → EReal) (a1 : S8x1024.Idx → EReal) (a2 : S8x1.Idx → EReal) (a3 a4 : S8x1024.Idx → EReal)
    (a5 : S8x1.Idx → EReal) : S4x2048x1024.Idx → EReal := fun i =>
  outK (Ideal.ofBits .f32 0xBF000000#32) (Ideal.ofBits .f32 0x00000000#32) (Ideal.ofBits .f32 0x3F800000#32)
    (Ideal.ofBits .f32 0x3A83126F#32) (a0 i)
    (fun k => a1 (ix2 k (col i)))
    (fun k => a2 (ix2 k (⟨0, Nat.one_pos⟩ : Fin 1)))
    (fun k => a3 (ix2 k (col i)))
    (fun k => a5 (ix2 k (⟨0, Nat.one_pos⟩ : Fin 1)))
    (fun k => a4 (ix2 k (col i)))

/-- The printed index maps, decided over the 32 points: the x window moves with the result window, whose last block
    index is 0, and the tables' windows stay at block (0, 0). -/
theorem idx_facts : ∀ t : Fin cfg0.N,
    win0_0.index t (0 : Fin 3) = win0_6.index t (0 : Fin 3) ∧ win0_0.index t (1 : Fin 3) = win0_6.index t (1 : Fin 3)
    ∧ win0_0.index t (2 : Fin 3) = win0_6.index t (2 : Fin 3) ∧ win0_6.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- Every block index (b, q, 0) is some point's. -/
theorem idx_onto : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

/-- What point t writes back is block t of `G` of the six arrays as the region finds them. -/
theorem flushed_eq (c : Dev nD) (t : Fin cfg0.N) :
    (dats m 0 c).flushed 6 t = ((cfg0.win 6).blk t).view.read (Elt Ideal)
      (G (V m c main_arg0) (V m c main_arg1) (V m c main_v16) (V m c main_v4) (V m c main_v5) (V m c main_v19)) := by
  show (cfg0.win 6).cut (grid0.coords t) ((dats m 0 c).after 6 t) = _
  rw [after0_6]
  obtain ⟨e00, e01, e02, e62, e10, e11, e20, e21, e30, e31, e40, e41, e50, e51⟩ := idx_facts t
  funext j
  show out0_6 (iblk m c 0 t) (iblk m c 1 t) (iblk m c 2 t) (iblk m c 3 t) (iblk m c 4 t) (iblk m c 5 t) j
    = G (V m c main_arg0) (V m c main_arg1) (V m c main_v16) (V m c main_v4) (V m c main_v5) (V m c main_v19)
        (((cfg0.win 6).blk t).view.emb j)
  refine (BodyValue.out_apply (iblk m c 0 t) (iblk m c 1 t) (iblk m c 2 t) (iblk m c 3 t) (iblk m c 4 t) (iblk m c 5 t) j).trans ?_
  have hj0 : (j 0).val < 1 := (j 0).isLt
  have hj1 : (j 1).val < 256 := (j 1).isLt
  have hj2 : (j 2).val < 1024 := (j 2).isLt
  have h0 : iblk m c 0 t j = V m c main_arg0 (((cfg0.win 6).blk t).view.emb j) := by
    show V m c main_arg0 (((cfg0.win 0).blk t).view.emb j) = _
    refine congrArg (V m c main_arg0) ?_
    funext a; apply Fin.ext
    match a with
    | ⟨0, _⟩ => show win0_0.index t (0 : Fin 3) * 1 + 1 * (j 0).val = win0_6.index t (0 : Fin 3) * 1 + 1 * (j 0).val; omega
    | ⟨1, _⟩ => show win0_0.index t (1 : Fin 3) * 256 + 1 * (j 1).val = win0_6.index t (1 : Fin 3) * 256 + 1 * (j 1).val; omega
    | ⟨2, _⟩ => show win0_0.index t (2 : Fin 3) * 1024 + 1 * (j 2).val = win0_6.index t (2 : Fin 3) * 1024 + 1 * (j 2).val; omega
  have hc : (⟨(j 2).val, (j 2).isLt⟩ : Fin 1024) = col (((cfg0.win 6).blk t).view.emb j) := by
    apply Fin.ext
    show (j 2).val = win0_6.index t (2 : Fin 3) * 1024 + 1 * (j 2).val
    omega
  have h1 : ∀ (k : Fin 8) (d : Fin 1024), iblk m c 1 t (ix2 k d) = V m c main_arg1 (ix2 k d) := fun k d => by
    show V m c main_arg1 (((cfg0.win 1).blk t).view.emb (ix2 k d)) = _
    refine congrArg (V m c main_arg1) ?_
    funext a; apply Fin.ext
    match a with
    | ⟨0, _⟩ => show win0_1.index t (0 : Fin 2) * 8 + 1 * k.val = k.val; omega
    | ⟨1, _⟩ => show win0_1.index t (1 : Fin 2) * 1024 + 1 * d.val = d.val; omega
  have h2 : ∀ (k : Fin 8) (d : Fin 1), iblk m c 2 t (ix2 k d) = V m c main_v16 (ix2 k d) := fun k d => by
    show V m c main_v16 (((cfg0.win 2).blk t).view.emb (ix2 k d)) = _
    refine congrArg (V m c main_v16) ?_
    funext a; apply Fin.ext
    match a with
    | ⟨0, _⟩ => show win0_2.index t (0 : Fin 2) * 8 + 1 * k.val = k.val; omega
    | ⟨1, _⟩ => show win0_2.index t (1 : Fin 2) * 1 + 1 * d.val = d.val; omega
  have h3 : ∀ (k : Fin 8) (d : Fin 1024), iblk m c 3 t (ix2 k d) = V m c main_v4 (ix2 k d) := fun k d => by
    show V m c main_v4 (((cfg0.win 3).blk t).view.emb (ix2 k d)) = _
    refine congrArg (V m c main_v4) ?_
    funext a; apply Fin.ext
    match a with
    | ⟨0, _⟩ => show win0_3.index t (0 : Fin 2) * 8 + 1 * k.val = k.val; omega
    | ⟨1, _⟩ => show win0_3.index t (1 : Fin 2) * 1024 + 1 * d.val = d.val; omega
  have h4 : ∀ (k : Fin 8) (d : Fin 1024), iblk m c 4 t (ix2 k d) = V m c main_v5 (ix2 k d) := fun k d => by
    show V m c main_v5 (((cfg0.win 4).blk t).view.emb (ix2 k d)) = _
    refine congrArg (V m c main_v5) ?_
    funext a; apply Fin.ext
    match a with
    | ⟨0, _⟩ => show win0_4.index t (0 : Fin 2) * 8 + 1 * k.val = k.val; omega
    | ⟨1, _⟩ => show win0_4.index t (1 : Fin 2) * 1024 + 1 * d.val = d.val; omega
  have h5 : ∀ (k : Fin 8) (d : Fin 1), iblk m c 5 t (ix2 k d) = V m c main_v19 (ix2 k d) := fun k d => by
    show V m c main_v19 (((cfg0.win 5).blk t).view.emb (ix2 k d)) = _
    refine congrArg (V m c main_v19) ?_
    funext a; apply Fin.ext
    match a with
    | ⟨0, _⟩ => show win0_5.index t (0 : Fin 2) * 8 + 1 * k.val = k.val; omega
    | ⟨1, _⟩ => show win0_5.index t (1 : Fin 2) * 1 + 1 * d.val = d.val; omega
  unfold G
  rw [h0, hc]
  simp only [h1, h2, h3, h4, h5]

/-- An index of the array is in point t's block iff each coordinate is in the block's range on its axis. -/
theorem mem_blk (t : Fin cfg0.N) (i : S4x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v20).slice (win0_6.rect t)).set ↔ _
  rw [View.set_slice_whole, Rect.mem_set_unit]
  exact Iff.rfl

/-- The 32 blocks tile the array: index (b, l, d) lies in the block of the point whose block index is (b, l / 256, 0). -/
theorem cover (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The result array after the run is `G` of the six arrays as the region finds them. -/
theorem final (c : Dev nD) : (dats m 0 c).arrAt 6 cfg0.N
    = G (V m c main_arg0) (V m c main_arg1) (V m c main_v16) (V m c main_v4) (V m c main_v5) (V m c main_v19) :=
  (dats m 0 c).arrAt_eq_of_cover 6 _ (fun t _ => flushed_eq m c t) cover

/-- The kernel's run re-posted: the result array at `G` of the six arrays as the region finds them, the arguments
    unchanged (the x and centres windows stage their arrays and never write them back; no window stages the variances
    or the priors). -/
theorem run : θ_run defs (onTc (τ := τ) (main (F := Ideal))) ⟨m, fun _ => 0, ρ⟩ fun r => ∀ c : Dev nD,
      r.2.mem ((c : Thread nD τ).loc main_v20)
        = G (V m c main_arg0) (V m c main_arg1) (V m c main_v16) (V m c main_v4) (V m c main_v5) (V m c main_v19)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 6).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.ArrayValue

end
-- ==== Proof.Tables.lean ====
/-
  The five tables the kernel's host prologue computes, as the region finds them, named by the reference's own stages.

  Both programs start with the same two host computations: the softplus of the variances (printed as a function of its own) and
  the softmax of the priors over the cluster axis. The kernel's prologue then forms 1 / (softplus + ε), the reciprocal
  root of softplus + ε, and the reciprocal root of softmax + ε. Read back from the list of host operations, the arrays
  are those terms over the stages `val_main_v0` (softplus) and `val_main_v11` (softmax) of the reference's reading,
  at any float instance: the two programs print the same operations on the same shapes.
-/
import proofs.«108010_j66735201845900_1_alg».proof.Proof.Gen.KernelIdeal.Frame
import proofs.«108010_j66735201845900_1_alg».proof.Proof.Gen.ReferenceIdeal.Read
import Idealize.ShloMosaic.Lib.StableHlo.Run

noncomputable section

namespace Cert.KernelIdeal.Tables

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The variances' array and the priors' array as launched. -/
abbrev varArr (c : Dev nD) : FVec F S8x1024 .f32 := m ((c : Thread nD τ).loc main_arg2)
abbrev priorArr (c : Dev nD) : FVec F S8x1 .f32 := m ((c : Thread nD τ).loc main_arg3)

/-- The regularised softplus of the variances, softplus + ε. -/
def regVar (c : Dev nD) : FVec F S8x1024 .f32 :=
  addf (Cert.ReferenceIdeal.Read.val_main_v0 (F := F) (varArr m c))
    (broadcastInDim S8x1024 ![] bcast_S_S8x1024 (constant S_ .f32 0x3A83126F#32))

/-- The regularised softmax of the priors, softmax + ε. -/
def regWeight (c : Dev nD) : FVec F S8x1 .f32 :=
  addf (Cert.ReferenceIdeal.Read.val_main_v11 (F := F) (priorArr m c))
    (broadcastInDim S8x1 ![] bcast_S_S8x1 (constant S_ .f32 0x3A83126F#32))

set_option maxHeartbeats 2000000 in
/-- The cluster weights' table is the softmax of the priors. -/
theorem weights_eq (c : Dev nD) :
    (V m c main_v16 : FVec F S8x1 .f32) = Cert.ReferenceIdeal.Read.val_main_v11 (F := F) (priorArr m c) := by
  dsimp only [Gen.V]
  simp only [hostOps0, hostOps0_1, List.flatten_cons, List.flatten_nil, List.append_nil, List.cons_append, List.nil_append]
  after_results_simp
  rfl

set_option maxHeartbeats 2000000 in
/-- The reciprocal variances' table is 1 / (softplus + ε). -/
theorem recipVar_eq (c : Dev nD) :
    (V m c main_v4 : FVec F S8x1024 .f32)
      = Host.divf (broadcastInDim S8x1024 ![] bcast_S_S8x1024 (constant S_ .f32 0x3F800000#32)) (regVar m c) := by
  dsimp only [Gen.V]
  simp only [hostOps0, hostOps0_1, List.flatten_cons, List.flatten_nil, List.append_nil, List.cons_append, List.nil_append]
  after_results_simp
  rfl

set_option maxHeartbeats 2000000 in
/-- The table of the variances' reciprocal roots is (softplus + ε)^(-1/2). -/
theorem rsqrtVar_eq (c : Dev nD) : (V m c main_v5 : FVec F S8x1024 .f32) = Host.rsqrt (regVar m c) := by
  dsimp only [Gen.V]
  simp only [hostOps0, hostOps0_1, List.flatten_cons, List.flatten_nil, List.append_nil, List.cons_append, List.nil_append]
  after_results_simp
  rfl

set_option maxHeartbeats 2000000 in
/-- The table of the regularised weights' reciprocal roots is (softmax + ε)^(-1/2). -/
theorem rsqrtWeight_eq (c : Dev nD) : (V m c main_v19 : FVec F S8x1 .f32) = Host.rsqrt (regWeight m c) := by
  dsimp only [Gen.V]
  simp only [hostOps0, hostOps0_1, List.flatten_cons, List.flatten_nil, List.append_nil, List.cons_append, List.nil_append]
  after_results_simp
  rfl

end Cert.KernelIdeal.Tables

end
-- ==== Proof.RefValue.lean ====
/-
  The reference's result at one index, as the scalar formula `Cert.Mixture.outR`.

  The reference lays everything out over a leading cluster axis of extent 8: x is broadcast to [8, 4, 2048, 1024], the
  centres and the regularised variances to the same shape from [8, 1, 1, 1024], the cluster weights from [8, 1, 1, 1],
  and the two sums run over that leading axis. At result index i = (b, l, d) and cluster k every operand is therefore
  read at x i, at the tables' entry (k, d), or at the weights' entry (k, 0). The softplus of the variances and the
  softmax of the priors are carried as they stand (the stages `val_main_v0` and `val_main_v11` of the generated
  reading of the reference's run).
-/
import proofs.«108010_j66735201845900_1_alg».proof.Proof.Gen.ReferenceIdeal.Read
import proofs.«108010_j66735201845900_1_alg».proof.Proof.Spec
import Idealize.ShloMosaic.Lib.ValueIdx

noncomputable section

namespace Cert.ReferenceIdeal.RefValue

open Cert.ReferenceIdeal Cert.ReferenceIdeal.Read Idealize.ShloMosaic Idealize.ShloMosaic.ValueIdx Cert.Mixture

/-- The column of a result index, as a coordinate of the [8, 1024] tables. -/
abbrev col (i : S4x2048x1024.Idx) : Fin 1024 := ⟨(i 2).val, (i 2).isLt⟩

section
variable (i : S4x2048x1024.Idx) (k : Fin 8)

/-! The composed index maps of the broadcasts, at the cell (k, b, l, d) of either sum. -/
theorem ix_x_46 : idx_main_v14 (idx_main_v16 (idx_main_v46 i k)) = i := by funext a; fin_cases a <;> rfl
theorem ix_mu_46 : idx_main_v15 (idx_main_v17 (idx_main_v46 i k)) = ix2 k (col i) := by funext a; fin_cases a <;> rfl
theorem ix_v_46 : idx_main_v13 (idx_main_v44 (idx_main_v46 i k)) = ix2 k (col i) := by funext a; fin_cases a <;> rfl
theorem ix_v'_46 : idx_main_v13 (idx_main_v24 (idx_main_v46 i k)) = ix2 k (col i) := by funext a; fin_cases a <;> rfl
theorem ix_pi_46 : idx_main_v12 (idx_main_v38 (idx_main_v46 i k)) = ix2 k (⟨0, Nat.one_pos⟩ : Fin 1) := by funext a; fin_cases a <;> rfl
theorem ix_pi'_46 : idx_main_v12 (idx_main_v27 (idx_main_v46 i k)) = ix2 k (⟨0, Nat.one_pos⟩ : Fin 1) := by funext a; fin_cases a <;> rfl
theorem ix_den_46 : idx_main_v32 (idx_main_v33 (idx_main_v46 i k)) = i := by funext a; fin_cases a <;> rfl
theorem ix_x_29 : idx_main_v14 (idx_main_v16 (idx_main_v29 i k)) = i := by funext a; fin_cases a <;> rfl
theorem ix_mu_29 : idx_main_v15 (idx_main_v17 (idx_main_v29 i k)) = ix2 k (col i) := by funext a; fin_cases a <;> rfl
theorem ix_v'_29 : idx_main_v13 (idx_main_v24 (idx_main_v29 i k)) = ix2 k (col i) := by funext a; fin_cases a <;> rfl
theorem ix_pi'_29 : idx_main_v12 (idx_main_v27 (idx_main_v29 i k)) = ix2 k (⟨0, Nat.one_pos⟩ : Fin 1) := by funext a; fin_cases a <;> rfl

end

/-- The reference's result at i is `outR` of x at i, the centres' column, the softmax of the priors and the
    regularised softplus of the variances' column. -/
theorem result_apply (x0 : (⟨S4x2048x1024, .f32⟩ : BufTy).Contents (Elt Ideal)) (x1 x2 : (⟨S8x1024, .f32⟩ : BufTy).Contents (Elt Ideal))
    (x3 : (⟨S8x1, .f32⟩ : BufTy).Contents (Elt Ideal)) (i : S4x2048x1024.Idx) :
    val_main_v46 (F := Ideal) x0 x1 x2 x3 i
      = outR (Ideal.ofBits .f32 0xBF000000#32) (Ideal.ofBits .f32 0x00000000#32) (Ideal.ofBits .f32 0x3A83126F#32) (x0 i)
          (fun k => x1 (ix2 k (col i)))
          (fun k => val_main_v11 (F := Ideal) x3 (ix2 k (⟨0, Nat.one_pos⟩ : Fin 1)))
          (fun k => val_main_v0 (F := Ideal) x2 (ix2 k (col i)) + Ideal.ofBits .f32 0x3A83126F#32) := by
  rw [val_main_v46_apply]
  simp only [val_main_v45_apply, val_main_v44_apply, val_main_v43_apply, val_main_v42_apply, val_main_v41_apply,
    val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_v16_apply, val_main_v15_apply, val_main_v14_apply, val_main_v13_apply, val_main_v12_apply,
    val_main_cst_2_apply, val_main_cst_3_apply, val_main_cst_4_apply, val_main_cst_5_apply, val_main_cst_6_apply,
    val_main_cst_7_apply, val_main_cst_8_apply,
    ix_x_46, ix_mu_46, ix_v_46, ix_v'_46, ix_pi_46, ix_pi'_46, ix_den_46, ix_x_29, ix_mu_29, ix_v'_29, ix_pi'_29]
  rfl

end Cert.ReferenceIdeal.RefValue

end
-- ==== Proof.lean ====
/-
  The certificate: a posterior-weighted mixture normalisation, kernel against reference, over the extended reals.

  For x of shape [4, 2048, 1024] and eight clusters with centres μ, variances s and priors p, both programs compute, at
  every (b, l, d),
      Σ_k (t_k / (Σ_j t_j + ε)) / √(π_k + ε) · (x - μ_k) / √(v_k),   t_k = π_k · exp(-(x - μ_k)² / (2 v_k)),
  with π = softmax(p) over the clusters and v = softplus(s) + ε at column d. The reference divides; the kernel tabulates
  1 / v, v^(-1/2) and (π + ε)^(-1/2) on the host, takes one reciprocal of the normaliser per element, multiplies, and
  adds its eight terms one after the other. On the extended reals the two agree wherever v > 0 and π ≥ 0
  (`Cert.Mixture.outK_eq_outR`): v > 0 always holds, since softplus is never negative and ε > 0, and π ≥ 0 holds because
  the precondition makes the priors finite, so the softmax's denominator is a sum of positive exponentials.

  The kernel's side is read off its frame: the body's stored block at an index (`BodyValue.out_apply`), the 32 blocks
  tiling the result (`ArrayValue.final`), and the five tables its host prologue leaves (`Tables`). The reference's side
  is its run read at an index (`RefValue.result_apply`). No operation was rewritten by the idealisation, so the
  preservation claim is trivial; the three frame claims are the two programs' frames and the reference's run.
-/
import proofs.«108010_j66735201845900_1_alg».proof.Defs
import proofs.«108010_j66735201845900_1_alg».proof.Proof.Gen.Kernel
import proofs.«108010_j66735201845900_1_alg».proof.Proof.Gen.Kernel.Skeleton
import proofs.«108010_j66735201845900_1_alg».proof.Proof.Gen.Kernel.Launch
import proofs.«108010_j66735201845900_1_alg».proof.Proof.Gen.Kernel.Points
import proofs.«108010_j66735201845900_1_alg».proof.Proof.Gen.Kernel.Frame
import proofs.«108010_j66735201845900_1_alg».proof.Proof.Gen.KernelIdeal
import proofs.«108010_j66735201845900_1_alg».proof.Proof.Gen.KernelIdeal.Skeleton
import proofs.«108010_j66735201845900_1_alg».proof.Proof.Gen.KernelIdeal.Launch
import proofs.«108010_j66735201845900_1_alg».proof.Proof.Gen.KernelIdeal.Points
import proofs.«108010_j66735201845900_1_alg».proof.Proof.Gen.KernelIdeal.Frame
import proofs.«108010_j66735201845900_1_alg».proof.Proof.Gen.ReferenceIdeal
import proofs.«108010_j66735201845900_1_alg».proof.Proof.Gen.Pre_finite_inputs
import proofs.«108010_j66735201845900_1_alg».proof.Proof.Gen.ReferenceIdeal.Run
import proofs.«108010_j66735201845900_1_alg».proof.Proof.Gen.ReferenceIdeal.Read
import proofs.«108010_j66735201845900_1_alg».proof.Proof.Spec
import proofs.«108010_j66735201845900_1_alg».proof.Proof.Algebra
import proofs.«108010_j66735201845900_1_alg».proof.Proof.TableFacts
import proofs.«108010_j66735201845900_1_alg».proof.Proof.TableSigns
import proofs.«108010_j66735201845900_1_alg».proof.Proof.BodyValue
import proofs.«108010_j66735201845900_1_alg».proof.Proof.ArrayValue
import proofs.«108010_j66735201845900_1_alg».proof.Proof.Tables
import proofs.«108010_j66735201845900_1_alg».proof.Proof.RefValue
import Idealize.ShloMosaic.Adequacy
import Idealize.ShloMosaic.Init

noncomputable section

namespace Cert.Proof

open Idealize.ShloMosaic Idealize.SL.Sem Idealize.ShloMosaic.TcCoe Idealize.ShloMosaic.ValueIdx Cert.Mixture

/-- The regulariser ε, the f32 nearest 1/1000, is positive. -/
theorem eps_pos : 0 < Ideal.ofBits .f32 0x3A83126F#32 := by
  simp [Ideal.ofBits, Ideal.ieee, -EReal.coe_mul]

section Bridge

open Cert.KernelIdeal Cert.KernelIdeal.Gen

variable (m : (ℓ : Loc nD τ sig) → Buf (Elt Ideal) ℓ)

/-- THE BRIDGE: under the precondition the reference's result term, over the kernel's argument arrays, is the array
    the kernel's run ends at — index by index the reference's formula against the kernel's, joined by the law. -/
theorem results_agree (hpre : Cert.Pre_KernelIdeal m) (c : Dev nD) :
    Cert.ReferenceIdeal.Read.val_main_v46 (F := Ideal) (m ((c.tc : Thread nD τ).loc main_arg0))
        (m ((c.tc : Thread nD τ).loc main_arg1)) (m ((c.tc : Thread nD τ).loc main_arg2)) (m ((c.tc : Thread nD τ).loc main_arg3))
      = Cert.KernelIdeal.ArrayValue.G (V m c main_arg0) (V m c main_arg1) (V m c main_v16) (V m c main_v4) (V m c main_v5)
          (V m c main_v19) := by
  have hfin := Cert.ReferenceIdeal.TableSigns.priors_finite _ _ _ _ (hpre c)
  funext i
  rw [Cert.ReferenceIdeal.RefValue.result_apply]
  unfold Cert.KernelIdeal.ArrayValue.G
  rw [V_main_arg0, V_main_arg1, Cert.KernelIdeal.Tables.weights_eq, Cert.KernelIdeal.Tables.recipVar_eq,
    Cert.KernelIdeal.Tables.rsqrtVar_eq, Cert.KernelIdeal.Tables.rsqrtWeight_eq]
  exact (outK_eq_outR (Ideal.ofBits .f32 0xBF000000#32) (Ideal.ofBits .f32 0x00000000#32) (Ideal.ofBits .f32 0x3F800000#32)
    (Ideal.ofBits .f32 0x3A83126F#32) (m ((c.tc : Thread nD τ).loc main_arg0) i)
    (fun k => m ((c.tc : Thread nD τ).loc main_arg1) (ix2 k (Cert.KernelIdeal.ArrayValue.col i)))
    (fun k => Cert.ReferenceIdeal.Read.val_main_v11 (F := Ideal) (m ((c.tc : Thread nD τ).loc main_arg3)) (ix2 k (⟨0, Nat.one_pos⟩ : Fin 1)))
    (fun k => Cert.ReferenceIdeal.Read.val_main_v0 (F := Ideal) (m ((c.tc : Thread nD τ).loc main_arg2)) (ix2 k (Cert.KernelIdeal.ArrayValue.col i))
      + Ideal.ofBits .f32 0x3A83126F#32)
    Ideal.ofBits_zero_f32 Ideal.ofBits_one_f32 eps_pos
    (fun k => add_pos_of_nonneg_of_pos' (Cert.ReferenceIdeal.TableSigns.softplus_nonneg_at _ _) eps_pos)
    (fun k => Cert.ReferenceIdeal.TableSigns.softmax_nonneg_at _ hfin _)).symm

end Bridge

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealised programs, from memories agreeing on the arguments, end at one result: the kernel's array
    (`ArrayValue.run`) and the reference's term (its generated run), equal by `results_agree`. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2]
  exact results_agree m hpre c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
